-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S128x128 : Shape := ⟨2, ![128, 128]⟩
abbrev S128 : Shape := ⟨1, ![128]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S32768x128 .f32) (main_arg1 : FVec F S128x128 .f32) (main_arg2 : FVec F S128 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S32768x128 : Shape := ⟨2, ![32768, 128]⟩
abbrev S128x128 : Shape := ⟨2, ![128, 128]⟩
abbrev S128 : Shape := ⟨1, ![128]⟩
abbrev S128x1 : Shape := ⟨2, ![128, 1]⟩
abbrev S128x32768 : Shape := ⟨2, ![128, 32768]⟩
abbrev S4x32x32768 : Shape := ⟨3, ![4, 32, 32768]⟩
abbrev S32768x4x32 : Shape := ⟨3, ![32768, 4, 32]⟩
abbrev S128x2048 : Shape := ⟨2, ![128, 2048]⟩
abbrev S2048x128 : Shape := ⟨2, ![2048, 128]⟩

abbrev nBuf : Space → Nat
  | .hbm => 7
  | .vmem => 5
  | .smem => 0
  | _ => 0

abbrev bufTy : (tb : Table) → Fin (tcTables nBuf tb) → BufTy
  | .hbm, ⟨0, _⟩ => ⟨S32768x128, .f32⟩
  | .hbm, ⟨1, _⟩ => ⟨S128x128, .f32⟩
  | .hbm, ⟨2, _⟩ => ⟨S128, .f32⟩
  | .hbm, ⟨3, _⟩ => ⟨S128x1, .f32⟩
  | .hbm, ⟨4, _⟩ => ⟨S128x32768, .f32⟩
  | .hbm, ⟨5, _⟩ => ⟨S4x32x32768, .f32⟩
  | .hbm, ⟨6, _⟩ => ⟨S32768x4x32, .f32⟩
  | .local _ .vmem, ⟨0, _⟩ => ⟨S32768x128, .f32⟩
  | .local _ .vmem, ⟨1, _⟩ => ⟨S128x128, .f32⟩
  | .local _ .vmem, ⟨2, _⟩ => ⟨S128x1, .f32⟩
  | .local _ .vmem, ⟨3, _⟩ => ⟨S128x2048, .f32⟩
  | .local _ .vmem, ⟨4, _⟩ => ⟨S128x2048, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c2048_i32 : BitVec 32 := 2048#32
  let v0 : BitVec 32 := Scalar.muli arg0 c2048_i32
  let v1 : Index := Scalar.indexCast v0
  let c0 : Index := 0#32
  ![v1.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32768x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128_S128x1 : S128.ShapeCasts S128x1
  shapeCasts_S128x32768_S4x32x32768 : S128x32768.ShapeCasts S4x32x32768
  transposes_S4x32x32768_S32768x4x32_2_0_1 : S4x32x32768.Transposes [2, 0, 1] S32768x4x32
  h_S2048x128 : 0 < S2048x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x2048 : S128x1.Broadcasts S128x2048
  inb_S128x2048_S128x2048_0_0 : ∀ a, (![0, 0] : Fin 2 → Nat) a + S128x2048.size a ≤ S128x2048.size a
  h_S128x2048 : 0 < S128x2048.numel
  dot_S128x128_S2048x128_S128x2048_0_1_1_0_n_n_wf : DotDims.WF S128x128 S2048x128 S128x2048 [0] [1] [1] [0] [] []
  hrank0 : 0 < grid0.rank
  k0_off1_inb : ∀ i : grid0.Coords, ∀ a, (k0_off1 i) a + S2048x128.size a ≤ S32768x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32768x128.size a ≤ S32768x128.size a
  hwx0_0 : ∀ i : grid0.Coords, EltTy.bits .f32 = 32 ∨ (Rect.block (s := S32768x128) S32768x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S128x32768.size a
  hwx0_3 : ∀ i : grid0.Coords, EltTy.bits .f32 = 32 ∨ (Rect.block (s := S128x32768) S128x2048.size (cc0_transform_3 i) (hinb0_3 i)).WholeWords (EltTy.packing .f32)

variable [Facts₀]

def dot_S128x128_S2048x128_S128x2048_0_1_1_0_n_n : DotDims S128x128 S2048x128 S128x2048 where
  lhsContracting := [0]
  rhsContracting := [1]
  lhsNonContracting := [1]
  rhsNonContracting := [0]
  lhsBatch := []
  rhsBatch := []
  wf := dot_S128x128_S2048x128_S128x2048_0_1_1_0_n_n_wf

abbrev win0_0 : Pipeline.Window sig grid0 :=
  Pipeline.Window.ofSpec (Memref.whole main_arg0) S32768x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S128x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x128 : Shape := ⟨2, ![32768, 128]⟩
abbrev S128x128 : Shape := ⟨2, ![128, 128]⟩
abbrev S128 : Shape := ⟨1, ![128]⟩
abbrev S1x128 : Shape := ⟨2, ![1, 128]⟩
abbrev S32768x4x32 : Shape := ⟨3, ![32768, 4, 32]⟩

abbrev nBuf : Space → Nat
  | .hbm => 8
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S128x128, .f32⟩
  | .hbm, ⟨2, _⟩ => ⟨S128, .f32⟩
  | .hbm, ⟨3, _⟩ => ⟨S32768x128, .f32⟩
  | .hbm, ⟨4, _⟩ => ⟨S1x128, .f32⟩
  | .hbm, ⟨5, _⟩ => ⟨S32768x128, .f32⟩
  | .hbm, ⟨6, _⟩ => ⟨S32768x128, .f32⟩
  | .hbm, ⟨7, _⟩ => ⟨S32768x4x32, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  shapeCasts_S32768x128_S32768x4x32 : S32768x128.ShapeCasts S32768x4x32
  dot_S32768x128_S128x128_S32768x128_1_0_0_1_n_n_wf : DotDims.WF S32768x128 S128x128 S32768x128 [1] [0] [0] [1] [] []

variable [Facts₀]

def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf

class Facts : Prop extends Facts₀ where

variable [Facts]
-- ==== Proof.ProjSpec.lean ====
/-
  The specification both programs are compared with: a linear layer over 32768 tokens,
      y[t, n] = (sum over k < 128 of x[t, k] * W[k, n]) + b[n],
  whose 128 output features are read as 4 heads of 32, feature n = 32 h + d, over the extended reals.
  The kernel holds the same numbers transposed (feature-major, token in the last axis) before the host
  re-lays them; that intermediate array is stated here too.
-/
import Idealize.ShloMosaic.Lib.ValueIdx
import Idealize.ShloMosaic.PureOps.Ideal

noncomputable section

namespace Cert.Proj

open Idealize.ShloMosaic Idealize.ShloMosaic.ValueIdx

/-- Feature `32 h + d`: position `d` of head `h`. -/
def col (h : Fin 4) (d : Fin 32) : Fin 128 := ⟨32 * h.val + d.val, by have := h.isLt; have := d.isLt; omega⟩

theorem col_val (h : Fin 4) (d : Fin 32) : (col h d).val = 32 * h.val + d.val := rfl

/-- The projection `x W + b` with its features split into heads: entry (t, h, d) is
    `(∑ k, x[t, k] * W[k, 32 h + d]) + b[32 h + d]`. -/
def proj (x : (⟨2, ![32768, 128]⟩ : Shape).Idx → EReal) (w : (⟨2, ![128, 128]⟩ : Shape).Idx → EReal)
    (b : (⟨1, ![128]⟩ : Shape).Idx → EReal) : (⟨3, ![32768, 4, 32]⟩ : Shape).Idx → EReal :=
  fun i => (∑ k : Fin 128, x (ix2 (i 0) k) * w (ix2 k (col (i 1) (i 2)))) + b (ix1 (col (i 1) (i 2)))

/-- The same numbers feature-major: entry (n, t) is `(∑ k, W[k, n] * x[t, k]) + b[n]`, the bias given as a
    column `[128, 1]`. -/
def projT (x : (⟨2, ![32768, 128]⟩ : Shape).Idx → EReal) (w : (⟨2, ![128, 128]⟩ : Shape).Idx → EReal)
    (b2 : (⟨2, ![128, 1]⟩ : Shape).Idx → EReal) : (⟨2, ![128, 32768]⟩ : Shape).Idx → EReal :=
  fun j => (∑ k : Fin 128, w (ix2 k (j 0)) * x (ix2 (j 1) k)) + b2 (ix2 (j 0) (0 : Fin 1))

/-- Reading the feature-major array at (32 h + d, t), with the bias column the bias vector, gives entry (t, h, d) of
    the projection: the products commute. -/
theorem projT_col (x : (⟨2, ![32768, 128]⟩ : Shape).Idx → EReal) (w : (⟨2, ![128, 128]⟩ : Shape).Idx → EReal)
    (b : (⟨1, ![128]⟩ : Shape).Idx → EReal) (b2 : (⟨2, ![128, 1]⟩ : Shape).Idx → EReal)
    (hb : ∀ n : Fin 128, b2 (ix2 n (0 : Fin 1)) = b (ix1 n)) (t : Fin 32768) (h : Fin 4) (d : Fin 32) :
    projT x w b2 (ix2 (col h d) t) = proj x w b (ix3 t h d) := by
  show (∑ k : Fin 128, w (ix2 k (col h d)) * x (ix2 t k)) + b2 (ix2 (col h d) (0 : Fin 1))
    = (∑ k : Fin 128, x (ix2 t k) * w (ix2 k (col h d))) + b (ix1 (col h d))
  rw [hb]
  exact congrArg (· + b (ix1 (col h d))) (Finset.sum_congr rfl fun k _ => mul_comm _ _)

end Cert.Proj

end
-- ==== Proof.RefValue.lean ====
/-
  The reference computes the specification: its five host operations (the product x W, the bias broadcast along
  the tokens, the sum, the split of the feature axis into heads) read at an index (t, h, d) give
  (∑ k, x[t, k] * W[k, 32 h + d]) + b[32 h + d]. The only arithmetic is that row-major position
  (t * 4 + h) * 32 + d of the [32768, 4, 32] result is row t, column 32 h + d of the [32768, 128] sum.
-/
import proofs.«166855_g19215683682323_cont_8to1_1854_14_alg».proof.Defs
import proofs.«166855_g19215683682323_cont_8to1_1854_14_alg».proof.Proof.Gen.ReferenceIdeal.Run
import proofs.«166855_g19215683682323_cont_8to1_1854_14_alg».proof.Proof.Gen.ReferenceIdeal.Read
import proofs.«166855_g19215683682323_cont_8to1_1854_14_alg».proof.Proof.ProjSpec

noncomputable section

namespace Cert.ReferenceIdeal.RefValue

open Cert.ReferenceIdeal Cert.ReferenceIdeal.Read Idealize.ShloMosaic Idealize.ShloMosaic.ValueIdx Cert.Proj

theorem row_idx (t : Fin 32768) (h : Fin 4) (d : Fin 32) (k : Fin 128) :
    lidx_main_v0 (idx_main_v4 (ix3 t h d)) k = ix2 t k :=
  funext fun a => Fin.ext (by
    match a with
    | ⟨0, _⟩ => show ((t.val * 4 + h.val) * 32 + d.val) / 128 = t.val; have := h.isLt; have := d.isLt; omega
    | ⟨1, _⟩ => rfl)

theorem col_idx (t : Fin 32768) (h : Fin 4) (d : Fin 32) (k : Fin 128) :
    ridx_main_v0 (idx_main_v4 (ix3 t h d)) k = ix2 k (col h d) :=
  funext fun a => Fin.ext (by
    match a with
    | ⟨0, _⟩ => rfl
    | ⟨1, _⟩ => show ((t.val * 4 + h.val) * 32 + d.val) % 128 = 32 * h.val + d.val; have := h.isLt; have := d.isLt; omega)

theorem bias_idx (t : Fin 32768) (h : Fin 4) (d : Fin 32) :
    idx_main_v1 (idx_main_v2 (idx_main_v4 (ix3 t h d))) = ix1 (col h d) :=
  funext fun a => Fin.ext (by
    match a with
    | ⟨0, _⟩ => show ((t.val * 4 + h.val) * 32 + d.val) % 128 = 32 * h.val + d.val; have := h.isLt; have := d.isLt; omega)

/-- The reference's result, at the ideal instance, is the projection of its three arguments. -/
theorem result_eq (x : (⟨S32768x128, .f32⟩ : BufTy).Contents (Elt Ideal)) (w : (⟨S128x128, .f32⟩ : BufTy).Contents (Elt Ideal))
    (b : (⟨S128, .f32⟩ : BufTy).Contents (Elt Ideal)) :
    val_main_v4 (F := Ideal) x w b = proj x w b := by
  funext i
  obtain ⟨t, h, d, rfl⟩ : ∃ (t : Fin 32768) (h : Fin 4) (d : Fin 32), i = ix3 t h d := ⟨i 0, i 1, i 2, eq_ix3 i⟩
  rw [val_main_v4_apply, val_main_v3_apply, val_main_v0_apply, val_main_v2_apply, val_main_v1_apply, bias_idx]
  simp only [row_idx, col_idx]
  rfl

end Cert.ReferenceIdeal.RefValue

end
-- ==== Proof.Payload.lean ====
/-
  The value the kernel body stores at one grid point, read at an index (n, t) of its [128, 2048] block, over the
  extended reals: the matrix unit contracts axis 0 of the weight block with axis 1 of the token block into a zero
  accumulator, so the product's entry is ∑ k, W[k, n] * xblk[t, k]; the bias column [128, 1] is broadcast along the
  tokens and added. The changes of float format around the product are the identity on extended reals.
-/
import proofs.«166855_g19215683682323_cont_8to1_1854_14_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The weight operand is read at its contracted axis 0 with the contraction index, -/
theorem lhs_axis0 (i : S128x2048.Idx) (q : dot_S128x128_S2048x128_S128x2048_0_1_1_0_n_n.contr.Idx) :
    (dot_S128x128_S2048x128_S128x2048_0_1_1_0_n_n.lhsIdx i q 0).val = (q ⟨0, by decide⟩).val :=
  dot_S128x128_S2048x128_S128x2048_0_1_1_0_n_n.lhsIdx_val_of_single rfl i q
/-- and at its free axis 1 with the result's row (the feature); -/
theorem lhs_axis1 (i : S128x2048.Idx) (q : dot_S128x128_S2048x128_S128x2048_0_1_1_0_n_n.contr.Idx) :
    (dot_S128x128_S2048x128_S128x2048_0_1_1_0_n_n.lhsIdx i q 1).val = (i 0).val := by
  unfold DotDims.lhsIdx
  rw [dif_neg (show ¬(1 : Fin S128x128.rank) ∈ dot_S128x128_S2048x128_S128x2048_0_1_1_0_n_n.lhsBatch by decide), dif_pos (show (1 : Fin S128x128.rank) ∈ dot_S128x128_S2048x128_S128x2048_0_1_1_0_n_n.lhsNonContracting by decide)]
  rfl
/-- the token operand at its free axis 0 with the result's column (the token), -/
theorem rhs_axis0 (i : S128x2048.Idx) (q : dot_S128x128_S2048x128_S128x2048_0_1_1_0_n_n.contr.Idx) :
    (dot_S128x128_S2048x128_S128x2048_0_1_1_0_n_n.rhsIdx i q 0).val = (i 1).val := by
  unfold DotDims.rhsIdx
  rw [dif_neg (show ¬(0 : Fin S2048x128.rank) ∈ dot_S128x128_S2048x128_S128x2048_0_1_1_0_n_n.rhsBatch by decide), dif_pos (show (0 : Fin S2048x128.rank) ∈ dot_S128x128_S2048x128_S128x2048_0_1_1_0_n_n.rhsNonContracting by decide)]
  rfl
/-- and at its contracted axis 1 with the contraction index. -/
theorem rhs_axis1 (i : S128x2048.Idx) (q : dot_S128x128_S2048x128_S128x2048_0_1_1_0_n_n.contr.Idx) :
    (dot_S128x128_S2048x128_S128x2048_0_1_1_0_n_n.rhsIdx i q 1).val = (q ⟨0, by decide⟩).val :=
  dot_S128x128_S2048x128_S128x2048_0_1_1_0_n_n.rhsIdx_val_of_single rfl i q

/-- The block product into the zero accumulator, at (n, t): ∑ k, l[k, n] * r[t, k]. -/
theorem product_apply {φ₁ φ₂ : FTy} (l : FVec Ideal S128x128 φ₁) (r : FVec Ideal S2048x128 φ₂) (n : Fin 128) (t : Fin 2048) :
    matmul dot_S128x128_S2048x128_S128x2048_0_1_1_0_n_n none l r (constant S128x2048 .f32 0x00000000#32) (ix2 n t)
      = ∑ k : Fin 128, l (ix2 k n) * r (ix2 t k) := by
  show FloatOps.matmul dot_S128x128_S2048x128_S128x2048_0_1_1_0_n_n none l r (constant S128x2048 .f32 0x00000000#32) (ix2 n t) = _
  rw [Ideal.matmul_constant_zero_apply, ← Equiv.sum_comp (ValueIdx.contrEquiv1 dot_S128x128_S2048x128_S128x2048_0_1_1_0_n_n 128 rfl rfl).symm]
  refine Finset.sum_congr rfl fun k _ => ?_
  have hk := ValueIdx.contrEquiv1_symm_val dot_S128x128_S2048x128_S128x2048_0_1_1_0_n_n 128 rfl rfl k
  have el : dot_S128x128_S2048x128_S128x2048_0_1_1_0_n_n.lhsIdx (ix2 n t) ((ValueIdx.contrEquiv1 dot_S128x128_S2048x128_S128x2048_0_1_1_0_n_n 128 rfl rfl).symm k) = ix2 k n := funext fun a => Fin.ext (by
    match a with
    | ⟨0, _⟩ => exact (lhs_axis0 _ _).trans hk
    | ⟨1, _⟩ => exact lhs_axis1 _ _)
  have er : dot_S128x128_S2048x128_S128x2048_0_1_1_0_n_n.rhsIdx (ix2 n t) ((ValueIdx.contrEquiv1 dot_S128x128_S2048x128_S128x2048_0_1_1_0_n_n 128 rfl rfl).symm k) = ix2 t k := funext fun a => Fin.ext (by
    match a with
    | ⟨0, _⟩ => exact rhs_axis0 _ _
    | ⟨1, _⟩ => exact (rhs_axis1 _ _).trans hk)
  rw [el, er]

/-- The bias column broadcast along the tokens, at (n, t): the column's entry (n, 0). -/
theorem bias_apply {α : Type} (v : S128x1.Idx → α) (n : Fin 128) (t : Fin 2048) :
    broadcastTo S128x2048 (shapeCast S128x1 v shapeCasts_S128x1_S128x1) broadcasts_S128x1_S128x2048 (ix2 n t) = v (ix2 n (0 : Fin 1)) := by
  rw [shapeCast_self]
  exact broadcastTo_apply v broadcasts_S128x1_S128x2048 (ix2 n t) (ix2 n (0 : Fin 1)) (fun a => match a with
    | ⟨0, _⟩ => by show n.val = if (128 : Nat) = 1 then 0 else n.val; rw [if_neg (by decide)]
    | ⟨1, _⟩ => by show 0 = if (1 : Nat) = 1 then 0 else t.val; rw [if_pos rfl])

/-- What the body stores, at (n, t) of its block: (∑ k, W[k, n] * xblk[t, k]) + bcol[n, 0]. -/
theorem stored_apply (xblk : Vec Ideal S2048x128 .f32) (w : Vec Ideal S128x128 .f32) (bcol : Vec Ideal S128x1 .f32)
    (n : Fin 128) (t : Fin 2048) :
    k0_pay1 (F := Ideal) xblk w bcol (ix2 n t) = (∑ k : Fin 128, w (ix2 k n) * xblk (ix2 t k)) + bcol (ix2 n (0 : Fin 1)) := by
  unfold k0_pay1
  exact congrArg₂ (fun a b : EReal => a + b)
    (product_apply (truncf (F := Ideal) .bf16 w bitsLt_bf16_f32) (truncf (F := Ideal) .bf16 xblk bitsLt_bf16_f32) n t)
    (bias_apply bcol n t)

end Cert.KernelIdeal.Payload

end
-- ==== Proof.Stored.lean ====
/-
  What one grid point leaves in the output's staging buffer. The body makes one store that covers the whole
  [128, 2048] block, so the buffer ends holding that store's value: the payload of the 2048 token rows the body
  loads from the resident token array (rows 2048 p .. 2048 p + 2047 at grid point p), the whole weight matrix and
  the whole bias column. Read at (n, s) over the extended reals that is
      (∑ k, W[k, n] * x[2048 p + s, k]) + bcol[n, 0].
-/
import proofs.«166855_g19215683682323_cont_8to1_1854_14_alg».proof.Proof.Gen.KernelIdeal.Frame
import proofs.«166855_g19215683682323_cont_8to1_1854_14_alg».proof.Proof.Payload
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Stored

open Cert.KernelIdeal Cert.KernelIdeal.Gen Idealize.ShloMosaic.ValueIdx

variable {F : FTy → Type} [FloatOps F]

theorem hz : (![0, 0] : Fin 2 → Nat) = fun _ => 0 := funext fun a => by fin_cases a <;> rfl

/-- The rectangle of token rows the body loads at grid coordinates `i`. -/
abbrev rowsAt (i : grid0.Coords) : Rect S32768x128 :=
  Rect.unit (s := S32768x128) (k0_off1 i) S2048x128.size (k0_off1_inb i)

/-- The output block after the body: its one covering store's payload, of the loaded token rows and the whole
    weight and bias buffers. -/
theorem out_eq (c : Dev nD) (i : grid0.Coords) (a1 : Memref sig .tc .vmem S32768x128 .f32) (h1 : a1.IsWhole)
    (a2 : Memref sig .tc .vmem S128x128 .f32) (h2 : a2.IsWhole) (a3 : Memref sig .tc .vmem S128x1 .f32) (h3 : a3.IsWhole)
    (a4 : Memref sig .tc .vmem S128x2048 .f32) (h4 : a4.IsWhole)
    (x0 : Vec F S32768x128 .f32) (x1 : Vec F S128x128 .f32) (x2 : Vec F S128x1 .f32) :
    out0_A_3 c i a1 h1 a2 h2 a3 h3 a4 h4 x0 x1 x2 = k0_pay1 (View.ld x0 (rowsAt i)) x1 x2 := by
  unfold out0_A_3
  rw [View.read_writes_eq_canon _ _ _ (cover0_A_3 c i a1 h1 a2 h2 a3 h3 a4 h4 x0 x1 x2)]
  unfold kernelRun0_A
  dsimp only
  sl_unfold_words
  rw [View.canon_unit_zero hz]
  simp only [View.readAt_eq_ld, h1.read_unread, h2.read_unread, h3.read_unread, View.ld_unit_zero (S := S128x128) hz,
    View.ld_unit_zero (S := S128x1) hz]
  rfl

/-- Row `s` of the rows loaded at grid coordinate `p` is row `2048 p + s` of the token array. -/
theorem rows_apply (X : Vec F S32768x128 .f32) (i : grid0.Coords) (p : Fin 16) (hp : (i 0).val = p.val)
    (s : Fin 2048) (k : Fin 128) :
    View.ld X (rowsAt i) (ix2 s k) = X (ix2 (⟨2048 * p.val + s.val, by have := p.isLt; have := s.isLt; omega⟩ : Fin 32768) k) := by
  show X ((rowsAt i).idx (ix2 s k)) = _
  refine congrArg X (funext fun a => Fin.ext ?_)
  have e := k0_off1_eq i
  match a with
  | ⟨0, _⟩ => show k0_off1 i 0 + 1 * s.val = 2048 * p.val + s.val; rw [e]; show 2048 * (i 0).val + 1 * s.val = _; rw [hp]; omega
  | ⟨1, _⟩ => show k0_off1 i 1 + 1 * k.val = k.val; rw [e]; show 0 + 1 * k.val = _; omega

/-- The value one grid point stores, read at (n, s), over the extended reals. -/
theorem stored_at (X : Vec Ideal S32768x128 .f32) (Wm : Vec Ideal S128x128 .f32) (Bc : Vec Ideal S128x1 .f32)
    (i : grid0.Coords) (p : Fin 16) (hp : (i 0).val = p.val) (n : Fin 128) (s : Fin 2048) :
    k0_pay1 (F := Ideal) (View.ld X (rowsAt i)) Wm Bc (ix2 n s)
      = (∑ k : Fin 128, Wm (ix2 k n) * X (ix2 (⟨2048 * p.val + s.val, by have := p.isLt; have := s.isLt; omega⟩ : Fin 32768) k))
        + Bc (ix2 n (0 : Fin 1)) := by
  refine (Cert.KernelIdeal.Payload.stored_apply (View.ld X (rowsAt i)) Wm Bc n s).trans ?_
  exact congrArg (· + Bc (ix2 n (0 : Fin 1))) (Finset.sum_congr rfl fun k _ => congrArg (Wm (ix2 k n) * ·) (rows_apply X i p hp s k))

end Cert.KernelIdeal.Stored

end
-- ==== Proof.KernelValue.lean ====
/-
  The idealized kernel's result. Its one pallas_call keeps the token array, the weight matrix and the bias column
  resident (each window's block is its whole array at every grid point) and writes block (0, p) of a [128, 32768]
  array at grid point p = 0 .. 15: columns 2048 p .. 2048 p + 2047. The sixteen blocks tile that array, so after
  the region it holds, at (n, T), (∑ k, W[k, n] * x[T, k]) + bcol[n, 0]: the feature-major projection. The host
  lines after the region read it as [4, 32, 32768] and move the token axis to the front; the line before it makes
  the bias vector a column. So @main's result at (t, h, d) is the feature-major array at (32 h + d, t).
-/
import proofs.«166855_g19215683682323_cont_8to1_1854_14_alg».proof.Proof.Stored
import proofs.«166855_g19215683682323_cont_8to1_1854_14_alg».proof.Proof.ProjSpec
import Idealize.ShloMosaic.Lib.StableHlo.Run

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx Cert.Proj Cert.KernelIdeal.Stored

variable (m : (ℓ : Loc nD τ sig) → Buf (Elt Ideal) ℓ) (ρ : Dev nD → PrngReg)

/-- The token array, the weight matrix and the bias column as the region finds them. -/
abbrev xarr (c : Dev nD) : Vec Ideal S32768x128 .f32 := V m c main_arg0
abbrev warr (c : Dev nD) : Vec Ideal S128x128 .f32 := V m c main_arg1
abbrev bcol (c : Dev nD) : Vec Ideal S128x1 .f32 := V m c main_call0_v0

/-- The printed index maps, decided over the grid: the three inputs' block index never moves, the output's is
    (0, p) at point p, and point p has grid coordinate p. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ ((grid0.coords t) 0).val = t.val :=
  (by decide +kernel : ∀ t : Fin grid0.N, _)

/-- Each input window's block is its whole array. -/
theorem xblk_eq (c : Dev nD) (t : Fin cfg0.N) : (iblk m c 0 t : Vec Ideal S32768x128 .f32) = xarr m c := by
  obtain ⟨e0, e1, -⟩ := idx_facts t
  funext j
  unfold iblk
  rw [View.read_apply]
  show V m c main_arg0 _ = V m c main_arg0 j
  congr 1
  funext a
  apply Fin.ext
  match a with
  | ⟨0, _⟩ => show win0_0.index t (0 : Fin 2) * 32768 + 1 * (j 0).val = (j 0).val; rw [e0]; omega
  | ⟨1, _⟩ => show win0_0.index t (1 : Fin 2) * 128 + 1 * (j 1).val = (j 1).val; rw [e1]; omega

theorem wblk_eq (c : Dev nD) (t : Fin cfg0.N) : (iblk m c 1 t : Vec Ideal S128x128 .f32) = warr m c := by
  obtain ⟨-, -, e0, e1, -⟩ := idx_facts t
  funext j
  unfold iblk
  rw [View.read_apply]
  show V m c main_arg1 _ = V m c main_arg1 j
  congr 1
  funext a
  apply Fin.ext
  match a with
  | ⟨0, _⟩ => show win0_1.index t (0 : Fin 2) * 128 + 1 * (j 0).val = (j 0).val; rw [e0]; omega
  | ⟨1, _⟩ => show win0_1.index t (1 : Fin 2) * 128 + 1 * (j 1).val = (j 1).val; rw [e1]; omega

theorem bblk_eq (c : Dev nD) (t : Fin cfg0.N) : (iblk m c 2 t : Vec Ideal S128x1 .f32) = bcol m c := by
  obtain ⟨-, -, -, -, e0, e1, -⟩ := idx_facts t
  funext j
  unfold iblk
  rw [View.read_apply]
  show V m c main_call0_v0 _ = V m c main_call0_v0 j
  congr 1
  funext a
  apply Fin.ext
  match a with
  | ⟨0, _⟩ => show win0_2.index t (0 : Fin 2) * 128 + 1 * (j 0).val = (j 0).val; rw [e0]; omega
  | ⟨1, _⟩ => show win0_2.index t (1 : Fin 2) * 1 + 1 * (j 1).val = (j 1).val; rw [e1]; omega

/-- Entry (n, s) of the output block at point t sits at (n, 2048 t + s) of the [128, 32768] array. -/
theorem out_emb (t : Fin cfg0.N) (n : Fin 128) (s : Fin 2048) (hlt : 2048 * t.val + s.val < 32768) :
    ((cfg0.win 3).blk t).view.emb (ix2 n s) = ix2 n (⟨2048 * t.val + s.val, hlt⟩ : Fin 32768) := by
  obtain ⟨-, -, -, -, -, -, e0, e1, -⟩ := idx_facts t
  funext a
  apply Fin.ext
  match a with
  | ⟨0, _⟩ => show win0_3.index t (0 : Fin 2) * 128 + 1 * n.val = n.val; rw [e0]; omega
  | ⟨1, _⟩ => show win0_3.index t (1 : Fin 2) * 2048 + 1 * s.val = 2048 * t.val + s.val; rw [e1]; omega

/-- What point t stores is the feature-major projection, read where the block sits. -/
theorem point_eq (c : Dev nD) (t : Fin cfg0.N) (y : S128x2048.Idx) :
    k0_pay1 (F := Ideal) (View.ld (xarr m c) (rowsAt (grid0.coords t))) (warr m c) (bcol m c) y
      = projT (xarr m c) (warr m c) (bcol m c) (((cfg0.win 3).blk t).view.emb y) := by
  obtain ⟨n, s, rfl⟩ : ∃ (n : Fin 128) (s : Fin 2048), y = ix2 n s := ⟨y 0, y 1, eq_ix2 y⟩
  have hN : cfg0.N = 16 := N_0
  have ht : t.val < 16 := hN ▸ t.isLt
  have hp : ((grid0.coords t) 0).val = (⟨t.val, ht⟩ : Fin 16).val := (idx_facts t).2.2.2.2.2.2.2.2
  have hlt : 2048 * t.val + s.val < 32768 := by have := s.isLt; omega
  rw [stored_at (xarr m c) (warr m c) (bcol m c) (grid0.coords t) ⟨t.val, ht⟩ hp n s, out_emb t n s hlt]
  rfl

/-- WHAT POINT t WRITES BACK is block t of the feature-major projection of the arrays as the region finds them. -/
theorem flushed_eq (c : Dev nD) (t : Fin cfg0.N) :
    (dats m 0 c).flushed 3 t = ((cfg0.win 3).blk t).view.read (Elt Ideal) (projT (xarr m c) (warr m c) (bcol m c)) := by
  show (cfg0.win 3).cut (grid0.coords t) ((dats m 0 c).after 3 t) = _
  rw [after0_3]
  unfold outsAt0
  rw [out_eq (F := Ideal) c (grid0.coords t) (ms0_0 t) (hs0_0 t) (ms0_1 t) (hs0_1 t) (ms0_2 t) (hs0_2 t) (ms0_3 t) (hs0_3 t)
    (iblk m c 0 t) (iblk m c 1 t) (iblk m c 2 t), xblk_eq, wblk_eq, bblk_eq]
  funext j
  exact point_eq m c t j

/-- An index of the array is in point t's block iff each coordinate is in the block's range on its axis. -/
theorem mem_blk (t : Fin cfg0.N) (i : S128x32768.Idx) :
    i ∈ ((cfg0.win 3).blk t).view.set ↔ ∀ a : Fin 2, win0_3.index t a * S128x2048.size a ≤ (i a).val ∧ (i a).val < win0_3.index t a * S128x2048.size a + S128x2048.size a := by
  show i ∈ ((View.whole main_call0_v1).slice (win0_3.rect t)).set ↔ _
  rw [View.set_slice_whole, Rect.mem_set_unit]
  exact Iff.rfl

/-- THE ARRAY after the region: the sixteen column blocks tile it (column T is in block T / 2048), so it is the
    feature-major projection everywhere. -/
theorem final3 (c : Dev nD) : (dats m 0 c).arrAt 3 cfg0.N = projT (xarr m c) (warr m c) (bcol m c) :=
  (dats m 0 c).arrAt_eq_of_cover 3 (projT (xarr m c) (warr m c) (bcol m c)) (fun t _ => flushed_eq m c t) fun i => by
    have hN : cfg0.N = 16 := N_0
    have h0 : (i 0).val < 128 := (i 0).isLt
    have h1 : (i 1).val < 32768 := (i 1).isLt
    let t : Fin cfg0.N := ⟨(i 1).val / 2048, by rw [hN]; omega⟩
    obtain ⟨-, -, -, -, -, -, e0, e1, -⟩ := idx_facts t
    refine ⟨t, flush0_3 t, ?_⟩
    rw [mem_blk]
    intro a
    match a with
    | ⟨0, _⟩ => show win0_3.index t (0 : Fin 2) * 128 ≤ (i 0).val ∧ (i 0).val < win0_3.index t (0 : Fin 2) * 128 + 128; rw [e0]; omega
    | ⟨1, _⟩ => show win0_3.index t (1 : Fin 2) * 2048 ≤ (i 1).val ∧ (i 1).val < win0_3.index t (1 : Fin 2) * 2048 + 2048
                rw [e1]; show (i 1).val / 2048 * 2048 ≤ (i 1).val ∧ (i 1).val < (i 1).val / 2048 * 2048 + 2048; omega

/-- The bias column the region finds is the bias vector reshaped: entry (n, 0) is b[n]. -/
theorem bcol_apply (c : Dev nD) (n : Fin 128) :
    bcol m c (ix2 n (0 : Fin 1)) = m ((c : Thread nD τ).loc main_arg2) (ix1 n) := by
  have e : (V m c main_call0_v0 : S128x1.Idx → EReal)
      = shapeCast S128x1 (m ((c : Thread nD τ).loc main_arg2)) shapeCasts_S128_S128x1 := by
    show StableHlo.after hostOps0 (fun b => m (c, b)) (Proc.devRef .tc main_call0_v0) = _
    after_results
    rfl
  show V m c main_call0_v0 (ix2 n (0 : Fin 1)) = _
  rw [e]
  exact shapeCast_apply _ shapeCasts_S128_S128x1 (ix2 n (0 : Fin 1)) (ix1 n)
    (by rw [Shape.rowMajor_val_one, Shape.rowMajor_val_two]; show n.val = n.val * 1 + 0; omega)

/-- @main's result after the host lines that follow the region. -/
theorem tail_eq (c : Dev nD) :
    Pipeline.afterTail₀ cfgs (dats m) 0 (V0 m) [hostOps1] c main_v0
      = transpose S32768x4x32 [2, 0, 1] (shapeCast S4x32x32768 ((dats m 0 c).arrAt 3 cfg0.N) shapeCasts_S128x32768_S4x32x32768)
          transposes_S4x32x32768_S32768x4x32_2_0_1 := by
  unfold Pipeline.afterTail₀
  show StableHlo.after hostOps1 _ (Proc.devRef .tc main_v0) = _
  after_results
  exact congrArg (fun Y => transpose S32768x4x32 [2, 0, 1] (shapeCast S4x32x32768 Y shapeCasts_S128x32768_S4x32x32768)
      transposes_S4x32x32768_S32768x4x32_2_0_1)
    (Pipeline.withArrays_arr spec0 launch0.win.arr_inj c (V0 m c) (fun w => (dats m 0 c).arrAt w cfg0.N) 3)

/-- The two host lines after the region read at (t, h, d): the [128, 32768] array at (32 h + d, t). Splitting the
    feature axis keeps the row-major position, (32 h + d) * 32768 + t = (h * 32 + d) * 32768 + t, and the transpose
    sends result axes (0, 1, 2) to source axes (2, 0, 1). -/
theorem relayout_apply {α : Type} (Y : S128x32768.Idx → α) (t : Fin 32768) (h : Fin 4) (d : Fin 32) :
    transpose S32768x4x32 [2, 0, 1] (shapeCast S4x32x32768 Y shapeCasts_S128x32768_S4x32x32768)
        transposes_S4x32x32768_S32768x4x32_2_0_1 (ix3 t h d) = Y (ix2 (col h d) t) := by
  refine (transpose_apply [2, 0, 1] _ transposes_S4x32x32768_S32768x4x32_2_0_1 (ix3 t h d) (ix3 h d t) (fun b => by
    match b with
    | ⟨0, _⟩ => rfl
    | ⟨1, _⟩ => rfl
    | ⟨2, _⟩ => rfl)).trans ?_
  exact shapeCast_apply Y shapeCasts_S128x32768_S4x32x32768 (ix3 h d t) (ix2 (col h d) t)
    (by rw [Shape.rowMajor_val_two, Shape.rowMajor_val_three]
        show (32 * h.val + d.val) * 32768 + t.val = (h.val * 32 + d.val) * 32768 + t.val; omega)

/-- @main's result is the projection of its three arguments. -/
theorem result_eq (c : Dev nD) :
    Pipeline.afterTail₀ cfgs (dats m) 0 (V0 m) [hostOps1] c main_v0
      = proj (m ((c : Thread nD τ).loc main_arg0)) (m ((c : Thread nD τ).loc main_arg1)) (m ((c : Thread nD τ).loc main_arg2)) := by
  rw [tail_eq, final3]
  funext i
  obtain ⟨t, h, d, rfl⟩ : ∃ (t : Fin 32768) (h : Fin 4) (d : Fin 32), i = ix3 t h d := ⟨i 0, i 1, i 2, eq_ix3 i⟩
  refine (relayout_apply (projT (xarr m c) (warr m c) (bcol m c)) t h d).trans ?_
  refine (projT_col (xarr m c) (warr m c) (m ((c : Thread nD τ).loc main_arg2)) (bcol m c) (bcol_apply m c) t h d).trans ?_
  show proj (V m c main_arg0) (V m c main_arg1) _ _ = _
  rw [V_main_arg0, V_main_arg1]

/-- The run, read: the result array at the projection of the arguments, the arguments unchanged. -/
theorem run : θ_run defs (onTc (τ := τ) (main (F := Ideal))) ⟨m, fun _ => 0, ρ⟩ fun r => ∀ c : Dev nD,
      r.2.mem ((c.tc : Thread nD τ).loc main_v0)
        = proj (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v0 (Pipeline.mem_restRefs_of main_v0 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KValue

end
-- ==== Proof.lean ====
/-
  A linear layer y = x W + b over 32768 tokens of 128 features, its 128 outputs read as 4 heads of 32, computed by
  a kernel and by a plain reference; the claim is that the two agree over the extended reals.

  The kernel keeps x, W and the bias (as a column) resident and, at each of 16 grid points, multiplies W's
  transpose with 2048 token rows on the matrix unit — entry (n, s) of the block is ∑ k, W[k, n] * x[2048 p + s, k]
  into a zero accumulator — adds the bias column along the tokens and writes column block p of a [128, 32768]
  array. The host then splits the feature axis into (4, 32) and moves the token axis to the front. The reference
  forms x W, adds the bias along the features and splits the feature axis. At (t, h, d) both are
      (∑ k, x[t, k] * W[k, 32 h + d]) + b[32 h + d];
  the only law between the two sides is that a product of extended reals commutes (the changes of float format
  around the kernel's product are the identity on extended reals). No finiteness of the inputs is used.

  The idealized kernel's text is the kernel's own read over the extended reals, so there is nothing to preserve.
-/
import proofs.«166855_g19215683682323_cont_8to1_1854_14_alg».proof.Defs
import proofs.«166855_g19215683682323_cont_8to1_1854_14_alg».proof.Proof.Gen.Kernel
import proofs.«166855_g19215683682323_cont_8to1_1854_14_alg».proof.Proof.Gen.Kernel.Skeleton
import proofs.«166855_g19215683682323_cont_8to1_1854_14_alg».proof.Proof.Gen.Kernel.Launch
import proofs.«166855_g19215683682323_cont_8to1_1854_14_alg».proof.Proof.Gen.Kernel.Points
import proofs.«166855_g19215683682323_cont_8to1_1854_14_alg».proof.Proof.Gen.Kernel.Frame
import proofs.«166855_g19215683682323_cont_8to1_1854_14_alg».proof.Proof.Gen.KernelIdeal
import proofs.«166855_g19215683682323_cont_8to1_1854_14_alg».proof.Proof.Gen.KernelIdeal.Skeleton
import proofs.«166855_g19215683682323_cont_8to1_1854_14_alg».proof.Proof.Gen.KernelIdeal.Launch
import proofs.«166855_g19215683682323_cont_8to1_1854_14_alg».proof.Proof.Gen.KernelIdeal.Points
import proofs.«166855_g19215683682323_cont_8to1_1854_14_alg».proof.Proof.Gen.KernelIdeal.Frame
import proofs.«166855_g19215683682323_cont_8to1_1854_14_alg».proof.Proof.Gen.ReferenceIdeal
import proofs.«166855_g19215683682323_cont_8to1_1854_14_alg».proof.Proof.Gen.ReferenceIdeal.Run
import proofs.«166855_g19215683682323_cont_8to1_1854_14_alg».proof.Proof.Gen.ReferenceIdeal.Read
import proofs.«166855_g19215683682323_cont_8to1_1854_14_alg».proof.Proof.Gen.Pre_finite_inputs
import proofs.«166855_g19215683682323_cont_8to1_1854_14_alg».proof.Proof.RefValue
import proofs.«166855_g19215683682323_cont_8to1_1854_14_alg».proof.Proof.KernelValue
import Idealize.ShloMosaic.Adequacy
import Idealize.ShloMosaic.Init

noncomputable section

namespace Cert.Proof

open Idealize.ShloMosaic Idealize.SL.Sem

/-- The word-level kernel and its idealization run to the end without a fault and leave their arguments as they
    were. -/
theorem frame_k : Cert.frame_Kernel := fun m ρ _ => Cert.Kernel.Gen.frame m ρ
theorem frame_ki : Cert.frame_KernelIdeal := fun m ρ _ => Cert.KernelIdeal.Gen.frame m ρ
/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, both programs end with the projection `x W + b` split into heads. -/
theorem algebraic : Cert.algebraic_KernelIdeal_ReferenceIdeal := by
  intro m ρ m' ρ' _ hagree
  refine ⟨fun c => Cert.Proj.proj (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
